-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x2048 : Shape := ⟨2, ![4, 2048]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4x2048 32) (main_arg2 : FVec F S4096x4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4x2048 : Shape := ⟨2, ![4, 2048]⟩
abbrev S4096x4096 : Shape := ⟨2, ![4096, 4096]⟩
abbrev S4096 : Shape := ⟨1, ![4096]⟩
abbrev S8192x4096 : Shape := ⟨2, ![8192, 4096]⟩
abbrev S8192x1 : Shape := ⟨2, ![8192, 1]⟩
abbrev S1x4096 : Shape := ⟨2, ![1, 4096]⟩
abbrev S2048x512 : Shape := ⟨2, ![2048, 512]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .i32⟩
  | .hbm, ⟨2, _⟩ => ⟨S4096x4096, .f32⟩
  | .hbm, ⟨3, _⟩ => ⟨S4096, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S8192x1, .i32⟩
  | .hbm, ⟨8, _⟩ => ⟨S8192x1, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1, .f32⟩
  | .local _ .vmem, ⟨5, _⟩ => ⟨S2048x1, .f32⟩
  | .local _ .vmem, ⟨6, _⟩ => ⟨S1x2048, .f32⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | .local _ .vmem, ⟨10, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4x2048_S8192x1 : S4x2048.ShapeCasts S8192x1
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S2048x1_S2048x512 : S2048x1.Broadcasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  broadcasts_S2048x1_S2048x2048 : S2048x1.Broadcasts S2048x2048
  shapeCasts_S8192x4096_S4x2048x4096 : S8192x4096.ShapeCasts S4x2048x4096
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x4096.size a
  hwx0_4 : ∀ i : grid0.Coords, EltTy.bits .f32 = 32 ∨ (Rect.block (s := S8192x4096) S2048x2048.size (cc0_transform_4 i) (hinb0_4 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4x2048 : Shape := ⟨2, ![4, 2048]⟩
abbrev S4096x4096 : Shape := ⟨2, ![4096, 4096]⟩
abbrev S4096 : Shape := ⟨1, ![4096]⟩
abbrev S4x2048x1 : Shape := ⟨3, ![4, 2048, 1]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .i32⟩
  | .hbm, ⟨2, _⟩ => ⟨S4096x4096, .f32⟩
  | .hbm, ⟨3, _⟩ => ⟨S4096, .f32⟩
  | .hbm, ⟨4, _⟩ => ⟨S4x2048, .f32⟩
  | .hbm, ⟨5, _⟩ => ⟨S4x2048x1, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S4x2048_S4x2048x1_0_1 : S4x2048.BroadcastsInDim S4x2048x1 (![0, 1] : Fin 2 → Fin S4x2048x1.rank)
  bcast_S4x2048x1_S4x2048x4096_0_1_2 : S4x2048x1.BroadcastsInDim S4x2048x4096 (![0, 1, 2] : Fin 3 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What the kernel body leaves behind at a grid point, case by case, as the body's arithmetic of the blocks it loads.

  The body keeps a [2048, 2048] accumulator between grid points. At a point whose slab index is 0 it first stores
  the zero block into the accumulator; at every point it then stores "accumulator + (masked input block) · (weight
  block)ᵀ"; at a point whose slab index is 7 it finally stores "accumulator + bias row · mask column" into the output
  block. Each of these stores covers its whole buffer, so what a buffer holds afterwards is the last store's value,
  and a load after a store reads that store's value.
-/
import proofs.«156299_j40785009442946_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First slab: the accumulator ends at "zero block + product". -/
theorem acc_first (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x2048 .f32) (harg7 : arg7.IsWhole) (arg8 : Memref sig .tc .vmem S2048x2048 .f32) (harg8 : arg8.IsWhole) (hc0 : cond0_0 i) (hc1 : ¬cond0_1 i)
    (x0 : Vec F S2048x512 .bf16) (x1 : Vec F S2048x512 .bf16) (x2 : Vec F S2048x1 .f32) (x3 : Vec F S1x2048 .f32) :
    sout0_A_0 c i arg3 harg3 arg4 harg4 arg5 harg5 arg6 harg6 arg7 harg7 arg8 harg8 hc0 hc1 x0 x1 x2 x3
      = k0_pay2 x2 x0 (k0_pay1 (F := F)) x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x2048) hz]
  simp only [View.readAt_eq_ld, harg3.read_unread, harg4.read_unread, harg5.read_unread, harg6.read_unread, harg8.read_unread,
    View.ld_unit_zero (S := S2048x512) hz, View.ld_unit_zero (S := S2048x1) hz, View.ld_unit_zero (S := S1x2048) hz,
    View.ld_unit_zero (S := S2048x2048) hz, View.readCov_unit_zero (S := S2048x2048) _ hz]

/-- A middle slab: the accumulator, found at `xs0`, ends at "`xs0` + product". -/
theorem acc_mid (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x2048 .f32) (harg7 : arg7.IsWhole) (arg8 : Memref sig .tc .vmem S2048x2048 .f32) (harg8 : arg8.IsWhole) (hc0 : ¬cond0_0 i) (hc1 : ¬cond0_1 i)
    (x0 : Vec F S2048x512 .bf16) (x1 : Vec F S2048x512 .bf16) (x2 : Vec F S2048x1 .f32) (x3 : Vec F S1x2048 .f32) (xs0 : Vec F S2048x2048 .f32) :
    sout0_B_0 c i arg3 harg3 arg4 harg4 arg5 harg5 arg6 harg6 arg7 harg7 arg8 harg8 hc0 hc1 x0 x1 x2 x3 xs0
      = k0_pay2 x2 x0 xs0 x1 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread,
    View.ld_unit_zero (S := S2048x512) hz, View.ld_unit_zero (S := S2048x1) hz, View.ld_unit_zero (S := S1x2048) hz,
    View.ld_unit_zero (S := S2048x2048) hz, View.readCov_unit_zero (S := S2048x2048) _ hz]

/-- The last slab: the accumulator, found at `xs0`, ends at "`xs0` + product" as well, -/
theorem acc_last (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x2048 .f32) (harg7 : arg7.IsWhole) (arg8 : Memref sig .tc .vmem S2048x2048 .f32) (harg8 : arg8.IsWhole) (hc0 : ¬cond0_0 i) (hc1 : cond0_1 i)
    (x0 : Vec F S2048x512 .bf16) (x1 : Vec F S2048x512 .bf16) (x2 : Vec F S2048x1 .f32) (x3 : Vec F S1x2048 .f32) (xs0 : Vec F S2048x2048 .f32) :
    sout0_C_0 c i arg3 harg3 arg4 harg4 arg5 harg5 arg6 harg6 arg7 harg7 arg8 harg8 hc0 hc1 x0 x1 x2 x3 xs0
      = k0_pay2 x2 x0 xs0 x1 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread,
    View.ld_unit_zero (S := S2048x512) hz, View.ld_unit_zero (S := S2048x1) hz, View.ld_unit_zero (S := S1x2048) hz,
    View.ld_unit_zero (S := S2048x2048) hz, View.readCov_unit_zero (S := S2048x2048) _ hz]

/-- and the output block is that accumulator plus "bias row · mask column". -/
theorem out_last (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x2048 .f32) (harg7 : arg7.IsWhole) (arg8 : Memref sig .tc .vmem S2048x2048 .f32) (harg8 : arg8.IsWhole) (hc0 : ¬cond0_0 i) (hc1 : cond0_1 i)
    (x0 : Vec F S2048x512 .bf16) (x1 : Vec F S2048x512 .bf16) (x2 : Vec F S2048x1 .f32) (x3 : Vec F S1x2048 .f32) (xs0 : Vec F S2048x2048 .f32) :
    out0_C_4 c i arg3 harg3 arg4 harg4 arg5 harg5 arg6 harg6 arg7 harg7 arg8 harg8 hc0 hc1 x0 x1 x2 x3 xs0
      = k0_pay3 (k0_pay2 x2 x0 xs0 x1) x3 x2 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread,
    View.ld_unit_zero (S := S2048x512) hz, View.ld_unit_zero (S := S2048x1) hz, View.ld_unit_zero (S := S1x2048) hz,
    View.ld_unit_zero (S := S2048x2048) hz, View.readCov_unit_zero (S := S2048x2048) _ hz]

end Cert.KernelIdeal.Pieces

end
-- ==== Proof.Payload.lean ====
/-
  The body's three stored values read at an entry (p, q) of the [2048, 2048] tile, on the extended reals.

  * the reset value is 0;
  * the accumulated value is  acc(p, q) + ∑ j < 512, (a(p, j) · μ(p, 0)) · w(q, j): the input block a scaled row by row
    by the mask column μ, contracted with the weight block w over the columns of both (a product with a transpose), a
    change of float format being the identity and the product into a zero accumulator a plain finite sum;
  * the output value is  acc(p, q) + β(0, q) · μ(p, 0)  for the bias row β.
-/
import proofs.«156299_j40785009442946_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.TcCoe Idealize.ShloMosaic.ValueIdx Idealize.SL.Sem
open Cert.KernelIdeal Cert.KernelIdeal.Gen
open scoped BigOperators

/-- A column [n, 1] broadcast along the lanes reads, at (p, j), the column's entry p. -/
theorem col_bcast_apply {α : Type} {n l : ℕ} (hn : n ≠ 1) (v : (⟨2, ![n, 1]⟩ : Shape).Idx → α)
    (h : (⟨2, ![n, 1]⟩ : Shape).Broadcasts ⟨2, ![n, l]⟩) (p : Fin n) (j : Fin l) :
    broadcastTo (⟨2, ![n, l]⟩ : Shape) v h (ix2 p j) = v (ix2 p 0) :=
  broadcastTo_apply v h (ix2 p j) (ix2 p 0) fun a => by
    match a with
    | ⟨0, _⟩ => show p.val = if n = 1 then 0 else p.val; rw [if_neg hn]
    | ⟨1, _⟩ => show 0 = if (1 : ℕ) = 1 then 0 else j.val; rw [if_pos rfl]

/-- A row [1, l] broadcast along the sublanes reads, at (p, q), the row's entry q. -/
theorem row_bcast_apply {α : Type} {n l : ℕ} (hl : l ≠ 1) (v : (⟨2, ![1, l]⟩ : Shape).Idx → α)
    (h : (⟨2, ![1, l]⟩ : Shape).Broadcasts ⟨2, ![n, l]⟩) (p : Fin n) (q : Fin l) :
    broadcastTo (⟨2, ![n, l]⟩ : Shape) v h (ix2 p q) = v (ix2 0 q) :=
  broadcastTo_apply v h (ix2 p q) (ix2 0 q) fun a => by
    match a with
    | ⟨0, _⟩ => show 0 = if (1 : ℕ) = 1 then 0 else p.val; rw [if_pos rfl]
    | ⟨1, _⟩ => show q.val = if l = 1 then 0 else q.val; rw [if_neg hl]

/-- The reset value. -/
theorem reset_apply (i : S2048x2048.Idx) : k0_pay1 (F := Ideal) i = 0 := by
  unfold k0_pay1
  simp only [shapeCast_self]
  show Ideal.ofBits .f32 0x00000000#32 = 0
  exact Ideal.ofBits_zero_f32

/-! The product's operand indices: the left operand is read at (row, k), the right at (column, k). -/

theorem lhs_0 (i : S2048x2048.Idx) (k : dot_S2048x512_S2048x512_S2048x2048_1_1_0_0_n_n.contr.Idx) :
    (dot_S2048x512_S2048x512_S2048x2048_1_1_0_0_n_n.lhsIdx i k 0).val = (i 0).val := by
  unfold DotDims.lhsIdx
  rw [dif_neg (show ¬(0 : Fin S2048x512.rank) ∈ dot_S2048x512_S2048x512_S2048x2048_1_1_0_0_n_n.lhsBatch by decide), dif_pos (show (0 : Fin S2048x512.rank) ∈ dot_S2048x512_S2048x512_S2048x2048_1_1_0_0_n_n.lhsNonContracting by decide)]
  rfl
theorem lhs_1 (i : S2048x2048.Idx) (k : dot_S2048x512_S2048x512_S2048x2048_1_1_0_0_n_n.contr.Idx) :
    (dot_S2048x512_S2048x512_S2048x2048_1_1_0_0_n_n.lhsIdx i k 1).val = (k ⟨0, by decide⟩).val :=
  dot_S2048x512_S2048x512_S2048x2048_1_1_0_0_n_n.lhsIdx_val_of_single rfl i k
theorem rhs_0 (i : S2048x2048.Idx) (k : dot_S2048x512_S2048x512_S2048x2048_1_1_0_0_n_n.contr.Idx) :
    (dot_S2048x512_S2048x512_S2048x2048_1_1_0_0_n_n.rhsIdx i k 0).val = (i 1).val := by
  unfold DotDims.rhsIdx
  rw [dif_neg (show ¬(0 : Fin S2048x512.rank) ∈ dot_S2048x512_S2048x512_S2048x2048_1_1_0_0_n_n.rhsBatch by decide), dif_pos (show (0 : Fin S2048x512.rank) ∈ dot_S2048x512_S2048x512_S2048x2048_1_1_0_0_n_n.rhsNonContracting by decide)]
  rfl
theorem rhs_1 (i : S2048x2048.Idx) (k : dot_S2048x512_S2048x512_S2048x2048_1_1_0_0_n_n.contr.Idx) :
    (dot_S2048x512_S2048x512_S2048x2048_1_1_0_0_n_n.rhsIdx i k 1).val = (k ⟨0, by decide⟩).val :=
  dot_S2048x512_S2048x512_S2048x2048_1_1_0_0_n_n.rhsIdx_val_of_single rfl i k

/-- The product of a [2048, 512] block with the transpose of another, into the zero accumulator, at (p, q). -/
theorem product_apply (l r : FVec Ideal S2048x512 .bf16) (p q : Fin 2048) :
    matmul dot_S2048x512_S2048x512_S2048x2048_1_1_0_0_n_n none l r (constant S2048x2048 .f32 0x00000000#32) (ix2 p q)
      = ∑ j : Fin 512, l (ix2 p j) * r (ix2 q j) := by
  simp only [matmul]
  rw [Ideal.matmul_constant_zero_apply, ← Equiv.sum_comp (ValueIdx.contrEquiv1 dot_S2048x512_S2048x512_S2048x2048_1_1_0_0_n_n 512 rfl rfl).symm]
  refine Finset.sum_congr rfl fun k _ => ?_
  have hk := ValueIdx.contrEquiv1_symm_val dot_S2048x512_S2048x512_S2048x2048_1_1_0_0_n_n 512 rfl rfl k
  have el : dot_S2048x512_S2048x512_S2048x2048_1_1_0_0_n_n.lhsIdx (ix2 p q) ((ValueIdx.contrEquiv1 dot_S2048x512_S2048x512_S2048x2048_1_1_0_0_n_n 512 rfl rfl).symm k) = ix2 p k := funext fun a => Fin.ext (by
    match a with
    | ⟨0, _⟩ => exact lhs_0 _ _
    | ⟨1, _⟩ => exact (lhs_1 _ _).trans hk)
  have er : dot_S2048x512_S2048x512_S2048x2048_1_1_0_0_n_n.rhsIdx (ix2 p q) ((ValueIdx.contrEquiv1 dot_S2048x512_S2048x512_S2048x2048_1_1_0_0_n_n 512 rfl rfl).symm k) = ix2 q k := funext fun a => Fin.ext (by
    match a with
    | ⟨0, _⟩ => exact rhs_0 _ _
    | ⟨1, _⟩ => exact (rhs_1 _ _).trans hk)
  rw [el, er]

/-- The accumulated value. -/
theorem accum_apply (μ : FVec Ideal S2048x1 .f32) (a : FVec Ideal S2048x512 .bf16) (acc : FVec Ideal S2048x2048 .f32)
    (w : FVec Ideal S2048x512 .bf16) (p q : Fin 2048) :
    k0_pay2 (F := Ideal) μ a acc w (ix2 p q) = acc (ix2 p q) + ∑ j : Fin 512, (a (ix2 p j) * μ (ix2 p 0)) * w (ix2 q j) := by
  unfold k0_pay2
  simp only [shapeCast_self]
  rw [addf_apply, product_apply]
  refine congrArg (acc (ix2 p q) + ·) (Finset.sum_congr rfl fun j _ => ?_)
  rw [mulf_apply, col_bcast_apply (by decide)]
  rfl

/-- The output value. -/
theorem output_apply (acc : FVec Ideal S2048x2048 .f32) (β : FVec Ideal S1x2048 .f32) (μ : FVec Ideal S2048x1 .f32)
    (p q : Fin 2048) :
    k0_pay3 (F := Ideal) acc β μ (ix2 p q) = acc (ix2 p q) + β (ix2 0 q) * μ (ix2 p 0) := by
  unfold k0_pay3
  simp only [shapeCast_self]
  rw [addf_apply, mulf_apply, row_bcast_apply (by decide), col_bcast_apply (by decide)]

end Cert.KernelIdeal.Payload

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.Spec.lean ====
/-
  The function both programs compute, on the extended reals.

  Tokens are the 8192 rows r = 2048·b + s of the [4, 2048] batch; X r i is the input entry, μ r the token's mask word
  read as a signed integer, W o i the weight and β o the bias. The result at token r and output feature o is

      ( ∑ i < 4096, (X r i · μ r) · W o i ) + β o · μ r.

  The arrays are read through total accessors over natural numbers (zero outside the array), so that a row
  2048·a + p of a block, or a column 512·s + j of a slab of the contraction axis, is named without carrying its bound.
  The contraction sum splits into 8 slabs of 512 columns (a regrouping of a finite sum in a commutative monoid: no
  finiteness of the entries is needed).
-/
import Idealize.ShloMosaic.PureOps.Ideal
import Idealize.ShloMosaic.Lib.ValueIdx
import proofs.«156299_j40785009442946_1_alg».proof.Proof.LibSums

noncomputable section

namespace Cert.MaskedLinear

open Idealize.ShloMosaic Idealize.ShloMosaic.ValueIdx
open scoped BigOperators

/-- The input [4, 2048, 4096], the mask [4, 2048], the weight [4096, 4096] and the bias [4096]. -/
abbrev SIn : Shape := ⟨3, ![4, 2048, 4096]⟩
abbrev SMask : Shape := ⟨2, ![4, 2048]⟩
abbrev SWt : Shape := ⟨2, ![4096, 4096]⟩
abbrev SBias : Shape := ⟨1, ![4096]⟩

variable (x : SIn.Idx → EReal) (mk : SMask.Idx → BitVec 32) (w : SWt.Idx → EReal) (β : SBias.Idx → EReal)

/-- Entry `i` of token `r`'s input row (token `r` is row `r % 2048` of batch `r / 2048`). -/
def xN (r i : ℕ) : EReal :=
  if h : r < 8192 ∧ i < 4096 then x (ix3 ⟨r / 2048, by omega⟩ ⟨r % 2048, by omega⟩ ⟨i, h.2⟩) else 0

/-- Token `r`'s mask word, read as a signed integer. -/
def mN (r : ℕ) : EReal :=
  if h : r < 8192 then (FloatOps.sitofp (F := Ideal) .f32 (mk (ix2 ⟨r / 2048, by omega⟩ ⟨r % 2048, by omega⟩)) : EReal) else 0

/-- Entry `i` of the weight row of output feature `o`. -/
def wN (o i : ℕ) : EReal :=
  if h : o < 4096 ∧ i < 4096 then w (ix2 ⟨o, h.1⟩ ⟨i, h.2⟩) else 0

/-- The bias of output feature `o`. -/
def bN (o : ℕ) : EReal :=
  if h : o < 4096 then β (ix1 ⟨o, h⟩) else 0

theorem xN_eq (b : Fin 4) (s : Fin 2048) (i : Fin 4096) : xN x (2048 * b.val + s.val) i.val = x (ix3 b s i) := by
  have hb := b.isLt; have hs := s.isLt
  unfold xN
  rw [dif_pos ⟨by omega, i.isLt⟩]
  congr 1
  funext a
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

theorem mN_eq (b : Fin 4) (s : Fin 2048) :
    mN mk (2048 * b.val + s.val) = FloatOps.sitofp (F := Ideal) .f32 (mk (ix2 b s)) := by
  have hb := b.isLt; have hs := s.isLt
  unfold mN
  rw [dif_pos (by omega)]
  congr 2
  funext a
  match a with
  | ⟨0, _⟩ => exact Fin.ext (by show (2048 * b.val + s.val) / 2048 = b.val; omega)
  | ⟨1, _⟩ => exact Fin.ext (by show (2048 * b.val + s.val) % 2048 = s.val; omega)

theorem wN_eq (o i : Fin 4096) : wN w o.val i.val = w (ix2 o i) := by
  unfold wN
  rw [dif_pos ⟨o.isLt, i.isLt⟩]

theorem bN_eq (o : Fin 4096) : bN β o.val = β (ix1 o) := by
  unfold bN
  rw [dif_pos o.isLt]

/-- Token `r`'s masked row against the weight row of feature `o`: the whole contraction. -/
def rowDot (r o : ℕ) : EReal := ∑ i : Fin 4096, (xN x r i.val * mN mk r) * wN w o i.val

/-- The same restricted to slab `s` of the contraction axis (columns `512·s + j`), for row `p` of row block `a` and
    feature `q` of feature block `b`. -/
def slabDot (a b s p q : ℕ) : EReal :=
  ∑ j : Fin 512, (xN x (2048 * a + p) (512 * s + j.val) * mN mk (2048 * a + p)) * wN w (2048 * b + q) (512 * s + j.val)

/-- The contraction is the sum of its 8 slabs. -/
theorem rowDot_slabs (a b p q : ℕ) :
    rowDot x mk w (2048 * a + p) (2048 * b + q) = ∑ s ∈ Finset.range 8, slabDot x mk w a b s p q := by
  unfold rowDot slabDot
  rw [Finset.sum_range]
  exact Cert.Sums.sum_blocks 8 512 fun i : Fin (8 * 512) => (xN x (2048 * a + p) i.val * mN mk (2048 * a + p)) * wN w (2048 * b + q) i.val

/-- The result at token `r` and feature `o`. -/
def flat (r o : ℕ) : EReal := rowDot x mk w r o + bN β o * mN mk r

/-- The result as the [4, 2048, 4096] array both programs return. -/
def result : SIn.Idx → EReal := fun i => flat x mk w β (2048 * (i 0).val + (i 1).val) (i 2).val

end Cert.MaskedLinear

end
-- ==== Proof.Blocks.lean ====
/-
  The blocks the kernel loads at a grid point, read off the program's arguments.

  The grid has 64 points; point t works on row block a = t / 16 (2048 tokens), feature block b = (t / 8) % 2 (2048
  output features) and slab s = t % 8 (512 columns of the contraction axis). Before the kernel region the host
  flattens the input to [8192, 4096] (token r = 2048·batch + row), converts input and weight to bf16 (the identity on
  the extended reals), turns the mask into a float column [8192, 1] and the bias into a row [1, 4096].
-/
import proofs.«156299_j40785009442946_1_alg».proof.Proof.Gen.KernelIdeal.Frame
import proofs.«156299_j40785009442946_1_alg».proof.Proof.Spec
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen Cert.MaskedLinear

variable (m : (ℓ : Loc nD τ sig) → Buf (Elt Ideal) ℓ)

/-- The four arguments on core `c`. -/
abbrev inp (c : Dev nD) : SIn.Idx → EReal := m ((c : Thread nD τ).loc main_arg0)
abbrev msk (c : Dev nD) : SMask.Idx → BitVec 32 := m ((c : Thread nD τ).loc main_arg1)
abbrev wgt (c : Dev nD) : SWt.Idx → EReal := m ((c : Thread nD τ).loc main_arg2)
abbrev bia (c : Dev nD) : SBias.Idx → EReal := m ((c : Thread nD τ).loc main_arg3)

theorem N64 : cfg0.N = 64 := N_0

/-! ## The host's prefix, read at an entry -/

/-- The flattened bf16 input at (r, i) is entry i of token r's row. -/
theorem flatInput_apply (c : Dev nD) (r i : ℕ) (hr : r < 8192) (hi : i < 4096) :
    V m c main_v1 (ix2 ⟨r, hr⟩ ⟨i, hi⟩) = xN (inp m c) r i := by
  have e : V m c main_v1 = truncf (F := Ideal) .bf16 (shapeCast S8192x4096 (inp m c) shapeCasts_S4x2048x4096_S8192x4096) bitsLt_bf16_f32 := by
    show StableHlo.after hostOps0 (fun b => m (c, b)) (Proc.devRef .tc main_v1) = _
    after_results
    rfl
  rw [e]
  show shapeCast S8192x4096 (inp m c) shapeCasts_S4x2048x4096_S8192x4096 (ix2 ⟨r, hr⟩ ⟨i, hi⟩) = _
  unfold xN
  rw [dif_pos ⟨hr, hi⟩]
  refine shapeCast_apply _ _ _ _ ?_
  rw [Shape.rowMajor_val_three, Shape.rowMajor_val_two]
  show ((r / 2048) * 2048 + r % 2048) * 4096 + i = r * 4096 + i
  omega

/-- The bf16 weight at (o, i) is the weight there. -/
theorem weight_apply (c : Dev nD) (o i : ℕ) (ho : o < 4096) (hi : i < 4096) :
    V m c main_v2 (ix2 ⟨o, ho⟩ ⟨i, hi⟩) = wN (wgt m c) o i := by
  have e : V m c main_v2 = truncf (F := Ideal) .bf16 (wgt m c) bitsLt_bf16_f32 := by
    show StableHlo.after hostOps0 (fun b => m (c, b)) (Proc.devRef .tc main_v2) = _
    after_results
  rw [e]
  unfold wN
  rw [dif_pos ⟨ho, hi⟩]
  rfl

/-- The float mask column at (r, 0) is token r's mask word as a signed integer. -/
theorem maskCol_apply (c : Dev nD) (r : ℕ) (hr : r < 8192) :
    V m c main_v4 (ix2 ⟨r, hr⟩ 0) = mN (msk m c) r := by
  have e : V m c main_v4 = sitofp (F := Ideal) .f32 (shapeCast S8192x1 (msk m c) shapeCasts_S4x2048_S8192x1) := by
    show StableHlo.after hostOps0 (fun b => m (c, b)) (Proc.devRef .tc main_v4) = _
    after_results
    rfl
  rw [e]
  unfold mN
  rw [dif_pos hr]
  show FloatOps.sitofp (F := Ideal) .f32 (shapeCast S8192x1 (msk m c) shapeCasts_S4x2048_S8192x1 (ix2 ⟨r, hr⟩ 0)) = _
  congr 1
  refine shapeCast_apply _ _ _ _ ?_
  rw [Shape.rowMajor_val_two, Shape.rowMajor_val_two]
  show (r / 2048) * 2048 + r % 2048 = r * 1 + 0
  omega

/-- The bias row at (0, o) is the bias of feature o. -/
theorem biasRow_apply (c : Dev nD) (o : ℕ) (ho : o < 4096) :
    V m c main_v5 (ix2 0 ⟨o, ho⟩) = bN (bia m c) o := by
  have e : V m c main_v5 = shapeCast S1x4096 (bia m c) shapeCasts_S4096_S1x4096 := by
    show StableHlo.after hostOps0 (fun b => m (c, b)) (Proc.devRef .tc main_v5) = _
    after_results
    rfl
  rw [e]
  unfold bN
  rw [dif_pos ho]
  refine shapeCast_apply _ _ _ _ ?_
  rw [Shape.rowMajor_val_one, Shape.rowMajor_val_two]
  show o = 0 * 4096 + o
  omega

/-! ## Which block each window holds at a point -/

theorem idx_in : ∀ t : Fin cfg0.N, win0_0.index t 0 = t.val / 16 ∧ win0_0.index t 1 = t.val % 8 :=
  (by decide +kernel : ∀ t : Fin grid0.N, win0_0.index t 0 = t.val / 16 ∧ win0_0.index t 1 = t.val % 8)
theorem idx_wt : ∀ t : Fin cfg0.N, win0_1.index t 0 = t.val / 8 % 2 ∧ win0_1.index t 1 = t.val % 8 :=
  (by decide +kernel : ∀ t : Fin grid0.N, win0_1.index t 0 = t.val / 8 % 2 ∧ win0_1.index t 1 = t.val % 8)
theorem idx_mask : ∀ t : Fin cfg0.N, win0_2.index t 0 = t.val / 16 ∧ win0_2.index t 1 = 0 :=
  (by decide +kernel : ∀ t : Fin grid0.N, win0_2.index t 0 = t.val / 16 ∧ win0_2.index t 1 = 0)
theorem idx_bias : ∀ t : Fin cfg0.N, win0_3.index t 0 = 0 ∧ win0_3.index t 1 = t.val / 8 % 2 :=
  (by decide +kernel : ∀ t : Fin grid0.N, win0_3.index t 0 = 0 ∧ win0_3.index t 1 = t.val / 8 % 2)
theorem idx_out : ∀ t : Fin cfg0.N, win0_4.index t 0 = t.val / 16 ∧ win0_4.index t 1 = t.val / 8 % 2 :=
  (by decide +kernel : ∀ t : Fin grid0.N, win0_4.index t 0 = t.val / 16 ∧ win0_4.index t 1 = t.val / 8 % 2)

/-- The input block at point t: rows 2048·(t/16) + p, columns 512·(t%8) + j. -/
theorem inBlock_apply (c : Dev nD) (t : Fin cfg0.N) (p : Fin 2048) (j : Fin 512) :
    iblk m c 0 t (ix2 p j) = xN (inp m c) (2048 * (t.val / 16) + p.val) (512 * (t.val % 8) + j.val) := by
  have ht : t.val < 64 := lt_of_lt_of_eq t.isLt N64
  have hp := p.isLt; have hj := j.isLt
  rw [← flatInput_apply m c _ _ (by omega) (by omega)]
  unfold iblk
  rw [View.read_apply]
  show V m c main_v1 (((cfg0.win 0).blk t).view.emb (ix2 p j)) = V m c main_v1 _
  refine congrArg _ (funext fun a => Fin.ext ?_)
  match a with
  | ⟨0, _⟩ => show win0_0.index t 0 * 2048 + 1 * p.val = 2048 * (t.val / 16) + p.val; rw [(idx_in t).1]; omega
  | ⟨1, _⟩ => show win0_0.index t 1 * 512 + 1 * j.val = 512 * (t.val % 8) + j.val; rw [(idx_in t).2]; omega

/-- The weight block at point t: features 2048·((t/8)%2) + q, columns 512·(t%8) + j. -/
theorem wtBlock_apply (c : Dev nD) (t : Fin cfg0.N) (q : Fin 2048) (j : Fin 512) :
    iblk m c 1 t (ix2 q j) = wN (wgt m c) (2048 * (t.val / 8 % 2) + q.val) (512 * (t.val % 8) + j.val) := by
  have ht : t.val < 64 := lt_of_lt_of_eq t.isLt N64
  have hq := q.isLt; have hj := j.isLt
  rw [← weight_apply m c _ _ (by omega) (by omega)]
  unfold iblk
  rw [View.read_apply]
  show V m c main_v2 (((cfg0.win 1).blk t).view.emb (ix2 q j)) = V m c main_v2 _
  refine congrArg _ (funext fun a => Fin.ext ?_)
  match a with
  | ⟨0, _⟩ => show win0_1.index t 0 * 2048 + 1 * q.val = 2048 * (t.val / 8 % 2) + q.val; rw [(idx_wt t).1]; omega
  | ⟨1, _⟩ => show win0_1.index t 1 * 512 + 1 * j.val = 512 * (t.val % 8) + j.val; rw [(idx_wt t).2]; omega

/-- The mask block at point t: tokens 2048·(t/16) + p. -/
theorem maskBlock_apply (c : Dev nD) (t : Fin cfg0.N) (p : Fin 2048) :
    iblk m c 2 t (ix2 p 0) = mN (msk m c) (2048 * (t.val / 16) + p.val) := by
  have ht : t.val < 64 := lt_of_lt_of_eq t.isLt N64
  have hp := p.isLt
  rw [← maskCol_apply m c _ (by omega)]
  unfold iblk
  rw [View.read_apply]
  show V m c main_v4 (((cfg0.win 2).blk t).view.emb (ix2 p 0)) = V m c main_v4 _
  refine congrArg _ (funext fun a => Fin.ext ?_)
  match a with
  | ⟨0, _⟩ => show win0_2.index t 0 * 2048 + 1 * p.val = 2048 * (t.val / 16) + p.val; rw [(idx_mask t).1]; omega
  | ⟨1, _⟩ => show win0_2.index t 1 * 1 + 1 * 0 = 0; rw [(idx_mask t).2]

/-- The bias block at point t: features 2048·((t/8)%2) + q. -/
theorem biasBlock_apply (c : Dev nD) (t : Fin cfg0.N) (q : Fin 2048) :
    iblk m c 3 t (ix2 0 q) = bN (bia m c) (2048 * (t.val / 8 % 2) + q.val) := by
  have ht : t.val < 64 := lt_of_lt_of_eq t.isLt N64
  have hq := q.isLt
  rw [← biasRow_apply m c _ (by omega)]
  unfold iblk
  rw [View.read_apply]
  show V m c main_v5 (((cfg0.win 3).blk t).view.emb (ix2 0 q)) = V m c main_v5 _
  refine congrArg _ (funext fun a => Fin.ext ?_)
  match a with
  | ⟨0, _⟩ => show win0_3.index t 0 * 1 + 1 * 0 = 0; rw [(idx_bias t).1]
  | ⟨1, _⟩ => show win0_3.index t 1 * 2048 + 1 * q.val = 2048 * (t.val / 8 % 2) + q.val; rw [(idx_bias t).2]; omega

end Cert.KernelIdeal.Blocks

end
-- ==== Proof.Accumulate.lean ====
/-
  The accumulator after each grid point, and the block the last slab writes out.

  Point n works on row block a = n / 16, feature block b = (n / 8) % 2 and slab s = n % 8; the eight points of one
  (a, b) are consecutive. By induction on n the accumulator after point n holds, at (p, q), the sum of the slabs
  0 … n % 8 of the contraction of token 2048·a + p with feature 2048·b + q: the first slab starts from the zero block,
  every later slab adds to what the point before left (same a and b, since n % 8 ≠ 0). At the last slab the eight
  slabs make the whole contraction and the block written out is the contraction plus bias · mask.
-/
import proofs.«156299_j40785009442946_1_alg».proof.Proof.Pieces
import proofs.«156299_j40785009442946_1_alg».proof.Proof.Payload
import proofs.«156299_j40785009442946_1_alg».proof.Proof.Blocks

noncomputable section

namespace Cert.KernelIdeal.Accumulate

open Idealize.ShloMosaic Idealize.ShloMosaic.TcCoe Idealize.ShloMosaic.ValueIdx Idealize.SL.Sem
open Cert.KernelIdeal Cert.KernelIdeal.Gen Cert.MaskedLinear Cert.KernelIdeal.Blocks
open scoped BigOperators

variable (m : (ℓ : Loc nD τ sig) → Buf (Elt Ideal) ℓ)

/-- The blocks point t loads, at their literal shapes. -/
abbrev aBlk (c : Dev nD) (t : Fin cfg0.N) : FVec Ideal S2048x512 .bf16 := iblk m c 0 t
abbrev wBlk (c : Dev nD) (t : Fin cfg0.N) : FVec Ideal S2048x512 .bf16 := iblk m c 1 t
abbrev mBlk (c : Dev nD) (t : Fin cfg0.N) : FVec Ideal S2048x1 .f32 := iblk m c 2 t

/-- The product the body adds at point t, at (p, q): slab t % 8 of the contraction. -/
theorem slab_at (c : Dev nD) (t : Fin cfg0.N) (p q : Fin 2048) :
    (∑ j : Fin 512, (aBlk m c t (ix2 p j) * mBlk m c t (ix2 p 0)) * wBlk m c t (ix2 q j))
      = slabDot (inp m c) (msk m c) (wgt m c) (t.val / 16) (t.val / 8 % 2) (t.val % 8) p.val q.val := by
  unfold slabDot
  refine Finset.sum_congr rfl fun j _ => ?_
  rw [show aBlk m c t (ix2 p j) = _ from inBlock_apply m c t p j, show mBlk m c t (ix2 p 0) = _ from maskBlock_apply m c t p,
    show wBlk m c t (ix2 q j) = _ from wtBlock_apply m c t q j]

/-- The accumulator after point n: slabs 0 … n % 8. -/
theorem acc_eq (c : Dev nD) : ∀ (n : ℕ) (h : n < cfg0.N) (p q : Fin 2048),
    (outsAt0 m c n h).2 (ix2 p q)
      = ∑ s ∈ Finset.range (n % 8 + 1), slabDot (inp m c) (msk m c) (wgt m c) (n / 16) (n / 8 % 2) s p.val q.val := by
  intro n
  induction n with
  | zero =>
    intro h p q
    rw [outsAt0_A m c ⟨0, h⟩ rfl (by dsimp only; omega)]
    dsimp only
    rw [Pieces.acc_first, Payload.accum_apply, Payload.reset_apply, zero_add, slab_at m c ⟨0, h⟩ p q]
    exact (Finset.sum_range_one fun s => slabDot (inp m c) (msk m c) (wgt m c) (0 / 16) (0 / 8 % 2) s p.val q.val).symm
  | succ k ih =>
    intro h p q
    have hN : k + 1 < 64 := lt_of_lt_of_eq h N64
    by_cases h0 : (k + 1) % 8 = 0
    · rw [outsAt0_A m c ⟨k + 1, h⟩ h0 (by dsimp only; omega)]
      dsimp only
      rw [Pieces.acc_first, Payload.accum_apply, Payload.reset_apply, zero_add, slab_at m c ⟨k + 1, h⟩ p q]
      dsimp only
      rw [h0]
      exact (Finset.sum_range_one fun s => slabDot (inp m c) (msk m c) (wgt m c) ((k + 1) / 16) ((k + 1) / 8 % 2) s p.val q.val).symm
    · have hprev := ih (Nat.lt_of_succ_lt h) p q
      have e16 : (k + 1) / 16 = k / 16 := by omega
      have e8 : (k + 1) / 8 % 2 = k / 8 % 2 := by omega
      have em : (k + 1) % 8 = k % 8 + 1 := by omega
      by_cases h1 : (k + 1) % 8 = 7
      · rw [outsAt0_C m c ⟨k + 1, h⟩ h0 h1]
        dsimp only
        rw [Pieces.acc_last, Payload.accum_apply, slab_at m c ⟨k + 1, h⟩ p q]
        dsimp only
        refine (congrArg (· + _) hprev).trans ?_
        rw [e16, e8, em, Finset.sum_range_succ _ (k % 8 + 1)]
      · rw [outsAt0_B m c ⟨k + 1, h⟩ h0 h1]
        dsimp only
        rw [Pieces.acc_mid, Payload.accum_apply, slab_at m c ⟨k + 1, h⟩ p q]
        dsimp only
        refine (congrArg (· + _) hprev).trans ?_
        rw [e16, e8, em, Finset.sum_range_succ _ (k % 8 + 1)]

/-- The output block the last slab of (a, b) writes: the whole result on its rows and features. -/
theorem out_eq (c : Dev nD) (t : Fin cfg0.N) (h7 : t.val % 8 = 7) (p q : Fin 2048) :
    (outsAt0 m c t.val t.isLt).1 (ix2 p q)
      = flat (inp m c) (msk m c) (wgt m c) (bia m c) (2048 * (t.val / 16) + p.val) (2048 * (t.val / 8 % 2) + q.val) := by
  have hN : t.val < 64 := lt_of_lt_of_eq t.isLt N64
  have hprev := acc_eq m c (t.val - 1) (Nat.lt_of_le_of_lt (Nat.sub_le _ _) t.isLt) p q
  have e16 : (t.val - 1) / 16 = t.val / 16 := by omega
  have e8 : (t.val - 1) / 8 % 2 = t.val / 8 % 2 := by omega
  have em : (t.val - 1) % 8 + 1 = 7 := by omega
  rw [outsAt0_C m c t (by omega) h7]
  dsimp only
  rw [Pieces.out_last, Payload.output_apply, Payload.accum_apply, slab_at m c t p q, biasBlock_apply, maskBlock_apply]
  unfold flat
  rw [rowDot_slabs, Finset.sum_range_succ]
  refine congrArg (· + _) ?_
  refine (congrArg (· + _) hprev).trans ?_
  rw [e16, e8, em, h7]

end Cert.KernelIdeal.Accumulate

end
-- ==== Proof.Final.lean ====
/-
  The kernel's result array, and the program's result.

  Only the last slab of each (row block, feature block) writes its output block back; those 8 blocks tile the
  [8192, 4096] array, block (a, b) holding the result on tokens 2048·a + p and features 2048·b + q. So after the
  region the array holds the result at every (token, feature), and the closing reshape to [4, 2048, 4096] reads it
  at token 2048·batch + row.
-/
import proofs.«156299_j40785009442946_1_alg».proof.Proof.Accumulate
import Idealize.ShloMosaic.Lib.StableHlo.Run

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.MaskedLinear Cert.KernelIdeal.Blocks Cert.KernelIdeal.Accumulate

variable (m : (ℓ : Loc nD τ sig) → Buf (Elt Ideal) ℓ) (ρ : Dev nD → PrngReg)

/-- The result over (token, feature), as contents of the kernel's result array. -/
abbrev flatArr (c : Dev nD) : Buf (Elt Ideal) ((c : Thread nD τ).loc main_v6) :=
  fun i => flat (inp m c) (msk m c) (wgt m c) (bia m c) (i 0).val (i 1).val

/-- What a writing point writes back is its block of the result. -/
theorem flushed_eq (c : Dev nD) (t : Fin cfg0.N) (hf : (cfg0.win 4).flush t = true) :
    (dats m 0 c).flushed 4 t = ((cfg0.win 4).blk t).view.read (Elt Ideal) (flatArr m c) := by
  have h7 : t.val % 8 = 7 := (flush0_4 t).mp hf
  have ht : t.val < 64 := lt_of_lt_of_eq t.isLt N64
  show (cfg0.win 4).cut (grid0.coords t) ((dats m 0 c).after 4 t) = _
  rw [after0_4]
  funext y
  obtain ⟨p, q, rfl⟩ : ∃ (p q : Fin 2048), y = ix2 p q := ⟨y 0, y 1, eq_ix2 y⟩
  have hp := p.isLt; have hq := q.isLt
  have e0 : ((((cfg0.win 4).blk t).view.emb (ix2 p q)) 0).val = 2048 * (t.val / 16) + p.val := by
    show win0_4.index t 0 * 2048 + 1 * p.val = _; rw [(idx_out t).1]; omega
  have e1 : ((((cfg0.win 4).blk t).view.emb (ix2 p q)) 1).val = 2048 * (t.val / 8 % 2) + q.val := by
    show win0_4.index t 1 * 2048 + 1 * q.val = _; rw [(idx_out t).2]; omega
  show (outsAt0 m c t.val t.isLt).1 (ix2 p q)
    = flat (inp m c) (msk m c) (wgt m c) (bia m c) ((((cfg0.win 4).blk t).view.emb (ix2 p q)) 0).val ((((cfg0.win 4).blk t).view.emb (ix2 p q)) 1).val
  rw [e0, e1]
  exact out_eq m c t h7 p q

/-- An entry of the array lies in point t's block iff each coordinate lies in the block's range. -/
theorem mem_blk (t : Fin cfg0.N) (i : S8192x4096.Idx) :
    i ∈ ((cfg0.win 4).blk t).view.set ↔ ∀ a : Fin 2, win0_4.index t a * S2048x2048.size a ≤ (i a).val ∧ (i a).val < win0_4.index t a * S2048x2048.size a + S2048x2048.size a := by
  show i ∈ ((View.whole main_v6).slice (win0_4.rect t)).set ↔ _
  rw [View.set_slice_whole, Rect.mem_set_unit]
  exact Iff.rfl

/-- Every entry lies in the block of the last slab of its (row block, feature block). -/
theorem cover (c : Dev nD) (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hlt : 16 * ((i 0).val / 2048) + 8 * ((i 1).val / 2048) + 7 < cfg0.N := by rw [N64]; omega
  refine ⟨⟨16 * ((i 0).val / 2048) + 8 * ((i 1).val / 2048) + 7, hlt⟩, (flush0_4 _).mpr (by dsimp only; omega), ?_⟩
  rw [mem_blk]
  intro a
  match a with
  | ⟨0, _⟩ =>
    show win0_4.index ⟨_, hlt⟩ 0 * 2048 ≤ (i 0).val ∧ (i 0).val < win0_4.index ⟨_, hlt⟩ 0 * 2048 + 2048
    rw [(idx_out ⟨_, hlt⟩).1]; dsimp only; omega
  | ⟨1, _⟩ =>
    show win0_4.index ⟨_, hlt⟩ 1 * 2048 ≤ (i 1).val ∧ (i 1).val < win0_4.index ⟨_, hlt⟩ 1 * 2048 + 2048
    rw [(idx_out ⟨_, hlt⟩).2]; dsimp only; omega

/-- After the region the result array holds the result at every (token, feature). -/
theorem final (c : Dev nD) : (dats m 0 c).arrAt 4 cfg0.N = flatArr m c :=
  (dats m 0 c).arrAt_eq_of_cover 4 (flatArr m c) (flushed_eq m c) (cover c)

/-- The closing reshape reads the result array. -/
theorem tail_eq (c : Dev nD) :
    Pipeline.afterTail₀ cfgs (dats m) 0 (V0 m) [hostOps1] c main_v7
      = shapeCast S4x2048x4096 (flatArr m c) shapeCasts_S8192x4096_S4x2048x4096 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = flatArr m c :=
    (Pipeline.withArrays_arr spec0 launch0.win.arr_inj c _ _ 4).trans (final m c)
  rw [e]
  rfl

/-- Read at (batch, row, feature), the reshaped array is the result at token 2048·batch + row. -/
theorem reshaped (c : Dev nD) :
    shapeCast S4x2048x4096 (flatArr m c) shapeCasts_S8192x4096_S4x2048x4096
      = result (inp m c) (msk m c) (wgt m c) (bia m c) := by
  funext i
  have h0 : (i 0).val < 4 := (i 0).isLt
  have h1 : (i 1).val < 2048 := (i 1).isLt
  have h2 : (i 2).val < 4096 := (i 2).isLt
  refine (shapeCast_apply (flatArr m c) _ i (ix2 ⟨2048 * (i 0).val + (i 1).val, by omega⟩ ⟨(i 2).val, h2⟩) ?_).trans rfl
  show (S8192x4096.rowMajor (ix2 ⟨2048 * (i 0).val + (i 1).val, by omega⟩ ⟨(i 2).val, h2⟩)).val = (S4x2048x4096.rowMajor i).val
  rw [Shape.rowMajor_val_two, Shape.rowMajor_val_three]
  show (2048 * (i 0).val + (i 1).val) * 4096 + (i 2).val = ((i 0).val * 2048 + (i 1).val) * 4096 + (i 2).val
  omega

/-- The idealized kernel's run: the result buffer ends at the result, the arguments unchanged. -/
theorem run : θ_run (defs (F := Ideal)) (onTc (τ := τ) (main (F := Ideal))) ⟨m, fun _ => 0, ρ⟩ fun r => ∀ c : Dev nD,
      r.2.mem ((c.tc : Thread nD τ).loc main_v7) = result (inp m c) (msk m c) (wgt m c) (bia m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans ((tail_eq m c).trans (reshaped m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefValue.lean ====
/-
  The reference computes the same function: it scales the input by the mask broadcast along the feature axis,
  contracts with the weight over the input features, and adds the bias broadcast over tokens times the mask.
  Read at (batch b, row s, feature o) that is  ∑ i, (x(b,s,i) · μ(b,s)) · W(o,i) + β(o) · μ(b,s), the result at token
  2048·b + s.
-/
import proofs.«156299_j40785009442946_1_alg».proof.Proof.Gen.ReferenceIdeal.Read
import proofs.«156299_j40785009442946_1_alg».proof.Proof.Spec

noncomputable section

namespace Cert.ReferenceIdeal.RefValue

open Idealize.ShloMosaic Idealize.ShloMosaic.TcCoe Idealize.ShloMosaic.ValueIdx Idealize.SL.Sem
open Cert.ReferenceIdeal Cert.ReferenceIdeal.Read Cert.MaskedLinear
open scoped BigOperators

theorem ref_eq (x0 : SIn.Idx → EReal) (x1 : SMask.Idx → BitVec 32) (x2 : SWt.Idx → EReal) (x3 : SBias.Idx → EReal) :
    val_main_v9 (F := Ideal) x0 x1 x2 x3 = result x0 x1 x2 x3 := by
  funext i
  obtain ⟨b, s, o, rfl⟩ : ∃ (b : Fin 4) (s : Fin 2048) (o : Fin 4096), i = ix3 b s o := ⟨i 0, i 1, i 2, eq_ix3 i⟩
  show val_main_v9 (F := Ideal) x0 x1 x2 x3 (ix3 b s o) = flat x0 x1 x2 x3 (2048 * b.val + s.val) o.val
  unfold flat rowDot
  rw [mN_eq, bN_eq]
  simp only [xN_eq, wN_eq]
  rw [val_main_v9_apply, val_main_v4_apply, val_main_v8_apply, val_main_v6_apply, val_main_v5_apply, val_main_v7_apply,
    val_main_v1_apply, val_main_v0_apply]
  have e5 : idx_main_v5 (idx_main_v6 (ix3 b s o)) = ix1 o := funext fun a => by
    match a with
    | ⟨0, _⟩ => rfl
  have e7 : idx_main_v1 (idx_main_v7 (ix3 b s o)) = ix2 b s := funext fun a => by
    match a with
    | ⟨0, _⟩ => rfl
    | ⟨1, _⟩ => rfl
  rw [e5, e7]
  refine congrArg (· + _) (Finset.sum_congr rfl fun k _ => ?_)
  rw [val_main_v3_apply, val_main_v2_apply, val_main_v1_apply, val_main_v0_apply]
  have el : lidx_main_v4 (ix3 b s o) k = ix3 b s k := funext fun a => by
    match a with
    | ⟨0, _⟩ => rfl
    | ⟨1, _⟩ => rfl
    | ⟨2, _⟩ => rfl
  have er : ridx_main_v4 (ix3 b s o) k = ix2 o k := funext fun a => by
    match a with
    | ⟨0, _⟩ => rfl
    | ⟨1, _⟩ => rfl
  have e2 : idx_main_v1 (idx_main_v2 (ix3 b s k)) = ix2 b s := funext fun a => by
    match a with
    | ⟨0, _⟩ => rfl
    | ⟨1, _⟩ => rfl
  rw [el, er, e2]
  rfl

end Cert.ReferenceIdeal.RefValue

end
-- ==== Proof.lean ====
/-
  The certificate of the mask-gated linear layer.

  The kernel tiles the [8192, 4096] · [4096, 4096]ᵀ product into 2048 × 2048 output blocks and walks the contraction
  axis in 8 slabs of 512 columns, keeping the partial product in an accumulator between grid points; it scales the
  input rows by the token mask before each slab product and adds bias · mask at the last slab. The reference masks the
  input, contracts over all 4096 columns at once and adds bias · mask. On the extended reals (where a change of float
  format is the identity) both compute, at token r and feature o,

      ( ∑ i < 4096, (X r i · μ r) · W o i ) + β o · μ r ,

  and the two sides differ only in how the finite sum is grouped: 8 slabs of 512 against one run of 4096, which is a
  regrouping in a commutative monoid and needs no finiteness of the entries.

  Spec states that function and the regrouping; Pieces, Payload and Blocks read what the kernel body stores and loads
  at a grid point; Accumulate is the induction over the grid points; Final reads the kernel's result array and the
  closing reshape; RefValue reads the reference. The two frames of the kernel are the generated ones, the reference's
  frame is its generated run with the result dropped, and the idealization rewrote nothing.
-/
import proofs.«156299_j40785009442946_1_alg».proof.Defs
import proofs.«156299_j40785009442946_1_alg».proof.Proof.Gen.Kernel
import proofs.«156299_j40785009442946_1_alg».proof.Proof.Gen.Kernel.Skeleton
import proofs.«156299_j40785009442946_1_alg».proof.Proof.Gen.Kernel.Launch
import proofs.«156299_j40785009442946_1_alg».proof.Proof.Gen.Kernel.Points
import proofs.«156299_j40785009442946_1_alg».proof.Proof.Gen.Kernel.Frame
import proofs.«156299_j40785009442946_1_alg».proof.Proof.Gen.KernelIdeal
import proofs.«156299_j40785009442946_1_alg».proof.Proof.Gen.KernelIdeal.Skeleton
import proofs.«156299_j40785009442946_1_alg».proof.Proof.Gen.KernelIdeal.Launch
import proofs.«156299_j40785009442946_1_alg».proof.Proof.Gen.KernelIdeal.Points
import proofs.«156299_j40785009442946_1_alg».proof.Proof.Gen.KernelIdeal.Frame
import proofs.«156299_j40785009442946_1_alg».proof.Proof.Gen.ReferenceIdeal
import proofs.«156299_j40785009442946_1_alg».proof.Proof.Gen.Pre_finite_inputs
import proofs.«156299_j40785009442946_1_alg».proof.Proof.Gen.ReferenceIdeal.Run
import proofs.«156299_j40785009442946_1_alg».proof.Proof.Gen.ReferenceIdeal.Read
import proofs.«156299_j40785009442946_1_alg».proof.Proof.Final
import proofs.«156299_j40785009442946_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the one result function of arguments that agree. -/
theorem algebraic : Cert.algebraic_KernelIdeal_ReferenceIdeal := by
  intro m ρ m' ρ' _ hagree
  refine ⟨fun c => Cert.MaskedLinear.result (Cert.KernelIdeal.Blocks.inp m c) (Cert.KernelIdeal.Blocks.msk m c)
      (Cert.KernelIdeal.Blocks.wgt m c) (Cert.KernelIdeal.Blocks.bia m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  exact Cert.ReferenceIdeal.RefValue.ref_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
